-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x1x8192 : Shape := ⟨3, ![2, 1, 8192]⟩
abbrev S1x128x3 : Shape := ⟨3, ![1, 128, 3]⟩
abbrev S1x8192x3 : Shape := ⟨3, ![1, 8192, 3]⟩
abbrev S1x1x128 : Shape := ⟨3, ![1, 1, 128]⟩
abbrev S1x1x8192 : Shape := ⟨3, ![1, 1, 8192]⟩
abbrev S1x8192 : Shape := ⟨2, ![1, 8192]⟩
abbrev S128x3 : Shape := ⟨2, ![128, 3]⟩
abbrev S8192x3 : Shape := ⟨2, ![8192, 3]⟩
abbrev S3x8192 : Shape := ⟨2, ![3, 8192]⟩
abbrev S128x8192 : Shape := ⟨2, ![128, 8192]⟩
abbrev S128 : Shape := ⟨1, ![128]⟩
abbrev S128x1 : Shape := ⟨2, ![128, 1]⟩
abbrev S8192 : Shape := ⟨1, ![8192]⟩
abbrev S1x128 : Shape := ⟨2, ![1, 128]⟩
abbrev S2x8192 : Shape := ⟨2, ![2, 8192]⟩
abbrev S_ : Shape := ⟨0, ![]⟩
abbrev S2 : Shape := ⟨1, ![2]⟩

abbrev nBuf : Space → Nat
  | .hbm => 20
  | .vmem => 7
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x1x8192, .f32⟩
  | .hbm, ⟨3, _⟩ => ⟨S2x1x8192, .f32⟩
  | .hbm, ⟨4, _⟩ => ⟨S2x8192, .f32⟩
  | .hbm, ⟨5, _⟩ => ⟨S2x8192, .f32⟩
  | .hbm, ⟨6, _⟩ => ⟨S_, .f32⟩
  | .hbm, ⟨7, _⟩ => ⟨S2, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S_, .f32⟩
  | .hbm, ⟨18, _⟩ => ⟨S2, .f32⟩
  | .hbm, ⟨19, _⟩ => ⟨S2, .f32⟩
  | .local _ .vmem, ⟨0, _⟩ => ⟨S1x128x3, .f32⟩
  | .local _ .vmem, ⟨1, _⟩ => ⟨S1x128x3, .f32⟩
  | .local _ .vmem, ⟨2, _⟩ => ⟨S1x8192x3, .f32⟩
  | .local _ .vmem, ⟨3, _⟩ => ⟨S1x1x128, .f32⟩
  | .local _ .vmem, ⟨4, _⟩ => ⟨S1x1x128, .f32⟩
  | .local _ .vmem, ⟨5, _⟩ => ⟨S1x1x8192, .f32⟩
  | .local _ .vmem, ⟨6, _⟩ => ⟨S1x1x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  transposes_S8192x3_p1_0_S3x8192 : S8192x3.Transposes [1, 0] S3x8192
  bitsLt_bf16_f32 : FTy.bits .bf16 < FTy.bits .f32
  reduces_S128x3_S128 : S128x3.Reduces [1] S128
  shapeCasts_S128_S128x1 : S128.ShapeCasts S128x1
  reduces_S3x8192_S8192 : S3x8192.Reduces [0] S8192
  shapeCasts_S8192_S1x8192 : S8192.ShapeCasts S1x8192
  broadcasts_S128x1_S128x8192 : S128x1.Broadcasts S128x8192
  broadcasts_S1x8192_S128x8192 : S1x8192.Broadcasts S128x8192
  reduces_S128x8192_S128 : S128x8192.Reduces [1] S128
  reduces_S128x8192_S8192 : S128x8192.Reduces [0] S8192
  transposes_S128x1_p1_0_S1x128 : S128x1.Transposes [1, 0] S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S2x1x8192_S2x8192 : S2x1x8192.ShapeCasts S2x8192
  reducesTo_S2x8192_S2_d1 : S2x8192.ReducesTo [1] S2
  h_S_ : 0 < S_.numel
  bcast_S_S2 : S_.BroadcastsInDim S2 (![] : Fin 0 → Fin S2.rank)
  dot_S128x3_S3x8192_S128x8192_1_0_0_1_n_n_wf : DotDims.WF S128x3 S3x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S2x8192x3.size a
  hwx0_0 : ∀ i : grid0.Coords, EltTy.bits .f32 = 32 ∨ (Rect.block (s := S2x8192x3) S1x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S2x8192x3.size a
  hwx0_1 : ∀ i : grid0.Coords, EltTy.bits .f32 = 32 ∨ (Rect.block (s := S2x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x8192.size a
  hwx0_2 : ∀ i : grid0.Coords, EltTy.bits .f32 = 32 ∨ (Rect.block (s := S2x1x8192) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)

variable [Facts₀]

def dot_S128x3_S3x8192_S128x8192_1_0_0_1_n_n : DotDims S128x3 S3x8192 S128x8192 where
  lhsContracting := [1]
  rhsContracting := [0]
  lhsNonContracting := [0]
  rhsNonContracting := [1]
  lhsBatch := []
  rhsBatch := []
  wf := dot_S128x3_S3x8192_S128x8192_1_0_0_1_n_n_wf

abbrev win0_0 : Pipeline.Window sig grid0 :=
  Pipeline.Window.ofSpec (Memref.whole main_arg0) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩
abbrev S2 : Shape := ⟨1, ![2]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S2x8192x8192, .f32⟩
  | .hbm, ⟨22, _⟩ => ⟨S_, .f32⟩
  | .hbm, ⟨23, _⟩ => ⟨S2x8192, .f32⟩
  | .hbm, ⟨24, _⟩ => ⟨S_, .f32⟩
  | .hbm, ⟨25, _⟩ => ⟨S2x8192, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S2, .f32⟩
  | .hbm, ⟨39, _⟩ => ⟨S2, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S2_d1 : S2x8192.ReducesTo [1] S2
  bcast_S_S2 : S_.BroadcastsInDim S2 (![] : Fin 0 → Fin S2.rank)
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Pieces.lean ====
/-
  What one run of the kernel body leaves in its two output buffers, as values of the body's arithmetic.

  The body stores the tile's row minima (one store, covering the first output's block) and the running column
  minima (into the second output's block). At the first tile of a batch entry it first stores the `+∞` row, reads
  it back, and stores the minimum of that row and the tile's column minima over it: two stores of which the later
  covers. At every other tile it reads what the tile before left and stores the minimum of that and the tile's
  column minima: one covering store.
-/
import proofs.«176295_j41910290874689_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

/-- At a tile that is not the first of its batch entry the first output's block ends at the tile's row minima. -/
theorem out_B_2 (c : Dev nD) (i : grid0.Coords) (a2 : Memref sig .tc .vmem S1x128x3 .f32) (h2 : a2.IsWhole)
    (a3 : Memref sig .tc .vmem S1x8192x3 .f32) (h3 : a3.IsWhole) (a4 : Memref sig .tc .vmem S1x1x128 .f32) (h4 : a4.IsWhole)
    (a5 : Memref sig .tc .vmem S1x1x8192 .f32) (h5 : a5.IsWhole) (hc : ¬cond0_0 i)
    (x0 : Vec F S1x128x3 .f32) (x1 : Vec F S1x8192x3 .f32) (xo3 : Vec F S1x1x8192 .f32) :
    out0_B_2 c i a2 h2 a3 h3 a4 h4 a5 h5 hc x0 x1 xo3 = k0_pay5 x0 x1 := by
  unfold out0_B_2
  rw [View.read_writes_eq_canon _ _ _ (cover0_B_2 c i a2 h2 a3 h3 a4 h4 a5 h5 hc x0 x1 xo3)]
  unfold kernelRun0_B
  dsimp only
  sl_unfold_words
  rw [View.canon_unit_zero hz3]
  simp only [View.readAt_eq_ld, h2.read_unread, h3.read_unread, View.ld_unit_zero (S := S1x128x3) hz3,
    View.ld_unit_zero (S := S1x8192x3) hz3]

/-- … and the second output's block at the minimum of what the tile before left and the tile's column minima. -/
theorem out_B_3 (c : Dev nD) (i : grid0.Coords) (a2 : Memref sig .tc .vmem S1x128x3 .f32) (h2 : a2.IsWhole)
    (a3 : Memref sig .tc .vmem S1x8192x3 .f32) (h3 : a3.IsWhole) (a4 : Memref sig .tc .vmem S1x1x128 .f32) (h4 : a4.IsWhole)
    (a5 : Memref sig .tc .vmem S1x1x8192 .f32) (h5 : a5.IsWhole) (hc : ¬cond0_0 i)
    (x0 : Vec F S1x128x3 .f32) (x1 : Vec F S1x8192x3 .f32) (xo3 : Vec F S1x1x8192 .f32) :
    out0_B_3 c i a2 h2 a3 h3 a4 h4 a5 h5 hc x0 x1 xo3 = k0_pay1 (k0_pay4 x0 x1) xo3 := by
  unfold out0_B_3
  rw [View.read_writes_eq_canon _ _ _ (cover0_B_3 c i a2 h2 a3 h3 a4 h4 a5 h5 hc x0 x1 xo3)]
  unfold kernelRun0_B
  dsimp only
  sl_unfold_words
  rw [View.canon_unit_zero hz3]
  simp only [View.readAt_eq_ld, h2.read_unread, h3.read_unread, h5.read_unread, View.ld_unit_zero (S := S1x128x3) hz3,
    View.ld_unit_zero (S := S1x8192x3) hz3, View.ld_unit_zero (S := S1x1x8192) hz3]

/-- At the first tile of a batch entry the first output's block ends at the tile's row minima. -/
theorem out_A_2 (c : Dev nD) (i : grid0.Coords) (a2 : Memref sig .tc .vmem S1x128x3 .f32) (h2 : a2.IsWhole)
    (a3 : Memref sig .tc .vmem S1x8192x3 .f32) (h3 : a3.IsWhole) (a4 : Memref sig .tc .vmem S1x1x128 .f32) (h4 : a4.IsWhole)
    (a5 : Memref sig .tc .vmem S1x1x8192 .f32) (h5 : a5.IsWhole) (hc : cond0_0 i)
    (x0 : Vec F S1x128x3 .f32) (x1 : Vec F S1x8192x3 .f32) :
    out0_A_2 c i a2 h2 a3 h3 a4 h4 a5 h5 hc x0 x1 = k0_pay5 x0 x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S1x128x3) hz3,
    View.ld_unit_zero (S := S1x8192x3) hz3]

/-- … and the second output's block at the minimum of the `+∞` row, stored and read back, and the tile's column minima. -/
theorem out_A_3 (c : Dev nD) (i : grid0.Coords) (a2 : Memref sig .tc .vmem S1x128x3 .f32) (h2 : a2.IsWhole)
    (a3 : Memref sig .tc .vmem S1x8192x3 .f32) (h3 : a3.IsWhole) (a4 : Memref sig .tc .vmem S1x1x128 .f32) (h4 : a4.IsWhole)
    (a5 : Memref sig .tc .vmem S1x1x8192 .f32) (h5 : a5.IsWhole) (hc : cond0_0 i)
    (x0 : Vec F S1x128x3 .f32) (x1 : Vec F S1x8192x3 .f32) :
    out0_A_3 c i a2 h2 a3 h3 a4 h4 a5 h5 hc x0 x1 = k0_pay1 (k0_pay4 x0 x1) (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x8192) hz3, View.readCov_unit_zero (S := S1x1x8192) _ hz3]
  simp only [View.readAt_eq_ld, h2.read_unread, h3.read_unread, View.ld_unit_zero (S := S1x128x3) hz3,
    View.ld_unit_zero (S := S1x8192x3) hz3]

end Cert.KernelIdeal.Pieces

end
-- ==== Proof.Spec.lean ====
/-
  The Chamfer distance between two batches of point clouds, as functions on the extended reals.

  A batch `x` holds two clouds of 8192 points of 3-space. For clouds `x`, `y` of one batch entry `b`,
  the distance of point `n` of `x` from point `m` of `y` is taken through the polarisation identity
  `|p - q|² = |p|² + |q|² - 2 p·q`, cut at zero before the root:
  `dist x y b n m = √ max ((|x_n|² + |y_m|²) - 2 · x_n·y_m) 0`.
  `nearestA` is, for each point of `x`, the distance to its nearest point of `y`: the infimum over `m`;
  `nearestB` is, for each point of `y`, the infimum over `n`. An infimum over a finite index set is the
  fold of `min` from `+∞`, in any order and any grouping, which is what lets a tiled running minimum and a
  one-shot reduction meet.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- A batch of two clouds of 8192 points of 3-space. -/
abbrev Clouds := FVec Ideal ⟨3, ![2, 8192, 3]⟩ .f32

/-- The squared length of point `n` of cloud `b`. -/
def sqNorm (x : Clouds) (b : Fin 2) (n : Fin 8192) : EReal :=
  ∑ k : Fin 3, x (ix3 b n k) * x (ix3 b n k)

/-- The inner product of point `n` of `x` with point `m` of `y`, both of batch entry `b`. -/
def inner (x y : Clouds) (b : Fin 2) (n m : Fin 8192) : EReal :=
  ∑ k : Fin 3, x (ix3 b n k) * y (ix3 b m k)

/-- The distance of point `n` of `x` from point `m` of `y`: the root of the polarised square, cut at zero. -/
def dist (x y : Clouds) (b : Fin 2) (n m : Fin 8192) : EReal :=
  Ideal.sqrt (max ((sqNorm x b n + sqNorm y b m) - Ideal.ofBits .f32 0x40000000#32 * inner x y b n m)
    (Ideal.ofBits .f32 0x00000000#32))

/-- For point `n` of `x`, the distance to its nearest point of `y`. -/
def nearestA (x y : Clouds) (b : Fin 2) (n : Fin 8192) : EReal :=
  Finset.univ.inf fun m : Fin 8192 => dist x y b n m

/-- For point `m` of `y`, the distance to its nearest point of `x`. -/
def nearestB (x y : Clouds) (b : Fin 2) (m : Fin 8192) : EReal :=
  Finset.univ.inf fun n : Fin 8192 => dist x y b n m

/-- The same distance inside one tile: row `r` of a block `a` of 128 points against row `c` of a block `p` of 8192
    points (each block carries a leading unit axis). -/
def tileDist (a : FVec Ideal ⟨3, ![1, 128, 3]⟩ .f32) (p : FVec Ideal ⟨3, ![1, 8192, 3]⟩ .f32) (r : Fin 128) (c : Fin 8192) : EReal :=
  Ideal.sqrt (max (((∑ k : Fin 3, a (ix3 0 r k) * a (ix3 0 r k)) + (∑ k : Fin 3, p (ix3 0 c k) * p (ix3 0 c k)))
      - Ideal.ofBits .f32 0x40000000#32 * (∑ k : Fin 3, a (ix3 0 r k) * p (ix3 0 c k)))
    (Ideal.ofBits .f32 0x00000000#32))

/-- The two arrays of nearest distances, entry by entry. -/
def nearestAArr (x y : Clouds) : FVec Ideal ⟨2, ![2, 8192]⟩ .f32 := fun i => nearestA x y (i 0) (i 1)
def nearestBArr (x y : Clouds) : FVec Ideal ⟨2, ![2, 8192]⟩ .f32 := fun i => nearestB x y (i 0) (i 1)

/-- The f32 pattern of `+∞` is the top of the extended reals. -/
theorem ofBits_inf_f32 : Ideal.ofBits .f32 0x7F800000#32 = (⊤ : EReal) := by
  simp [Ideal.ofBits, Ideal.ieee]

/-- A fold of the float minimum from `+∞` over a whole finite index type is the infimum over it. -/
theorem fold_minimumf_eq_inf {ι : Type} [Fintype ι] (f : ι → EReal) :
    (Finset.univ : Finset ι).fold (FloatOps.minimumf (F := Ideal) (φ := .f32)) (FloatOps.ofBits .f32 0x7F800000#32) f
      = Finset.univ.inf f := by
  show (Finset.univ : Finset ι).fold (min : EReal → EReal → EReal) (Ideal.ofBits .f32 0x7F800000#32) f = _
  rw [ofBits_inf_f32]
  rfl

end Cert.Chamfer

end
-- ==== Proof.LibMinReduce.lean ====
/-
  A float `vector.multi_reduction <minimumf>` over ONE axis, read at the ideal values at a result index: the fold of
  the minimum from the accumulator's value over that axis's coordinates, the result index with the coordinate
  inserted on the dropped axis (`Shape.Reduces.lift`). The companion of the library's reading of a maximum over one
  axis; general in the shapes, the axis and the float format.
-/
import Idealize.ShloMosaic.PureOps.Ideal
import Idealize.ShloMosaic.PureOps.Ideal.Laws
import Idealize.ShloMosaic.PureOps.Reduce

namespace Idealize.ShloMosaic.Ideal

variable {φ : FTy}

/-- A float `vector.multi_reduction <minimumf>` over one axis, read at `Ideal`: the fold of the minimum from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold (FloatOps.minimumf (F := Ideal) (φ := φ)) (FloatOps.ofBits φ acc) (src ∘ h.lift j) := by
  rw [multiReduction_minimumf_eq_fold]; exact h.fold_filter_drop_single _ _ src j

end Idealize.ShloMosaic.Ideal
-- ==== Proof.BodyValue.lean ====
/-
  The kernel body's arithmetic, read entry by entry at the ideal values.

  One grid step loads a block `a` of 128 points and a block `p` of 8192 points of 3-space (each with a leading
  unit axis). The body forms the 128 × 8192 table of distances
  `√ max ((|a_r|² + |p_c|²) − 2 · a_r·p_c) 0`: the inner products by one matrix product over the three coordinates,
  the squared lengths by two sums over the three coordinates, broadcast along the rows and along the columns. It then
  takes the minimum of the table along each row (for the 128 points of `a`) and along each column (for the 8192
  points of `p`), and folds the column minima into a running minimum that starts from `+∞`.

  Each theorem reads one stored value at one index: the reshapes, transposes and broadcasts only move entries, a sum
  over one axis is the sum over that axis's three coordinates, a minimum over one axis is the infimum over that axis's
  coordinates.
-/
import proofs.«176295_j41910290874689_1_alg».proof.Proof.Gen.KernelIdeal.Skeleton
import proofs.«176295_j41910290874689_1_alg».proof.Proof.Spec
import proofs.«176295_j41910290874689_1_alg».proof.Proof.LibMinReduce
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

open scoped BigOperators

namespace Cert.Chamfer.Body

open Idealize.ShloMosaic Idealize.ShloMosaic.ValueIdx
open Cert.KernelIdeal Cert.KernelIdeal.Gen

variable [Cert.KernelIdeal.Facts]

/-! ## Reshapes and broadcasts of a column

A vector of `a` entries seen as an `a × 1` column, and such a column repeated along `b` columns: each entry of the
result is the one entry of the operand in the same row. -/

section Column
variable {α : Type}

/-- A vector of `a` entries reshaped to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated along `b` columns reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Column

/-! ## Sums over the three coordinates -/

/-- The sum of a `128 × 3` table along its rows: at row `r` the sum of that row's three entries. -/
theorem rowSum_apply (x : FVec Ideal S128x3 .f32) (h : S128x3.Reduces [1] S128) (hφ : FKind.Formats .f32)
    (hacc : (0x00000000#32 : BitVec 32) = FKind.add.neutral .f32 hφ) (r : Fin 128) :
    multiReduction (F := Ideal) .add [1] S128 x 0x00000000#32 h hφ hacc (ix1 r) = ∑ k : Fin 3, x (ix2 r k) := by
  refine (Ideal.multiReduction_add_single x _ h hφ hacc (ix1 r)).trans ?_
  show ∑ k : Fin 3, x (h.lift (ix1 r) k) = _
  refine Finset.sum_congr rfl fun k _ => congrArg x (funext fun ax => Fin.ext ?_)
  match ax with
  | ⟨0, _⟩ => rfl
  | ⟨1, _⟩ => rfl

/-- The sum of a `3 × 8192` table along its columns: at column `c` the sum of that column's three entries. -/
theorem colSum_apply (x : FVec Ideal S3x8192 .f32) (h : S3x8192.Reduces [0] S8192) (hφ : FKind.Formats .f32)
    (hacc : (0x00000000#32 : BitVec 32) = FKind.add.neutral .f32 hφ) (c : Fin 8192) :
    multiReduction (F := Ideal) .add [0] S8192 x 0x00000000#32 h hφ hacc (ix1 c) = ∑ k : Fin 3, x (ix2 k c) := by
  refine (Ideal.multiReduction_add_single x _ h hφ hacc (ix1 c)).trans ?_
  show ∑ k : Fin 3, x (h.lift (ix1 c) k) = _
  refine Finset.sum_congr rfl fun k _ => congrArg x (funext fun ax => Fin.ext ?_)
  match ax with
  | ⟨0, _⟩ => rfl
  | ⟨1, _⟩ => rfl

/-! ## The matrix product over the three coordinates

The product of a `128 × 3` table with a `3 × 8192` table contracts the first's columns against the second's rows: the
left operand is read at (row, `k`), the right at (`k`, column). -/

theorem lhs_dot_0 (i : S128x8192.Idx) (q : dot_S128x3_S3x8192_S128x8192_1_0_0_1_n_n.contr.Idx) :
    (dot_S128x3_S3x8192_S128x8192_1_0_0_1_n_n.lhsIdx i q 0).val = (i 0).val := by
  unfold DotDims.lhsIdx
  rw [dif_neg (show ¬(0 : Fin S128x3.rank) ∈ dot_S128x3_S3x8192_S128x8192_1_0_0_1_n_n.lhsBatch by decide),
    dif_pos (show (0 : Fin S128x3.rank) ∈ dot_S128x3_S3x8192_S128x8192_1_0_0_1_n_n.lhsNonContracting by decide)]
  rfl
theorem lhs_dot_1 (i : S128x8192.Idx) (q : dot_S128x3_S3x8192_S128x8192_1_0_0_1_n_n.contr.Idx) :
    (dot_S128x3_S3x8192_S128x8192_1_0_0_1_n_n.lhsIdx i q 1).val = (q ⟨0, by decide⟩).val :=
  dot_S128x3_S3x8192_S128x8192_1_0_0_1_n_n.lhsIdx_val_of_single rfl i q
theorem rhs_dot_0 (i : S128x8192.Idx) (q : dot_S128x3_S3x8192_S128x8192_1_0_0_1_n_n.contr.Idx) :
    (dot_S128x3_S3x8192_S128x8192_1_0_0_1_n_n.rhsIdx i q 0).val = (q ⟨0, by decide⟩).val :=
  dot_S128x3_S3x8192_S128x8192_1_0_0_1_n_n.rhsIdx_val_of_single rfl i q
theorem rhs_dot_1 (i : S128x8192.Idx) (q : dot_S128x3_S3x8192_S128x8192_1_0_0_1_n_n.contr.Idx) :
    (dot_S128x3_S3x8192_S128x8192_1_0_0_1_n_n.rhsIdx i q 1).val = (i 1).val := by
  unfold DotDims.rhsIdx
  rw [dif_neg (show ¬(1 : Fin S3x8192.rank) ∈ dot_S128x3_S3x8192_S128x8192_1_0_0_1_n_n.rhsBatch by decide),
    dif_pos (show (1 : Fin S3x8192.rank) ∈ dot_S128x3_S3x8192_S128x8192_1_0_0_1_n_n.rhsNonContracting by decide)]
  rfl

/-- The matrix product into the zero table, at `(r, c)`: the sum over the three coordinates of the left operand's row
    `r` times the right operand's column `c`. -/
theorem dot_apply (x : FVec Ideal S128x3 .bf16) (y : FVec Ideal S3x8192 .bf16) (r : Fin 128) (c : Fin 8192) :
    matmul dot_S128x3_S3x8192_S128x8192_1_0_0_1_n_n none x y (constant (F := Ideal) S128x8192 .f32 0x00000000#32) (ix2 r c)
      = ∑ k : Fin 3, x (ix2 r k) * y (ix2 k c) := by
  simp only [matmul]
  rw [Ideal.matmul_constant_zero_apply,
    ← Equiv.sum_comp (contrEquiv1 dot_S128x3_S3x8192_S128x8192_1_0_0_1_n_n 3 rfl rfl).symm]
  refine Finset.sum_congr rfl fun k _ => ?_
  have hk := contrEquiv1_symm_val dot_S128x3_S3x8192_S128x8192_1_0_0_1_n_n 3 rfl rfl k
  have el : dot_S128x3_S3x8192_S128x8192_1_0_0_1_n_n.lhsIdx (ix2 r c)
      ((contrEquiv1 dot_S128x3_S3x8192_S128x8192_1_0_0_1_n_n 3 rfl rfl).symm k) = ix2 r k :=
    funext fun ax => Fin.ext (by
      match ax with
      | ⟨0, _⟩ => exact lhs_dot_0 _ _
      | ⟨1, _⟩ => exact (lhs_dot_1 _ _).trans hk)
  have er : dot_S128x3_S3x8192_S128x8192_1_0_0_1_n_n.rhsIdx (ix2 r c)
      ((contrEquiv1 dot_S128x3_S3x8192_S128x8192_1_0_0_1_n_n 3 rfl rfl).symm k) = ix2 k c :=
    funext fun ax => Fin.ext (by
      match ax with
      | ⟨0, _⟩ => exact (rhs_dot_0 _ _).trans hk
      | ⟨1, _⟩ => exact rhs_dot_1 _ _)
  rw [el, er]

/-! ## The table of distances -/

/-- The table of distances at `(r, c)`: the distance of point `r` of the first block from point `c` of the second. -/
theorem pay3_apply (a : Vec Ideal S1x128x3 .f32) (p : Vec Ideal S1x8192x3 .f32) (r : Fin 128) (c : Fin 8192) :
    k0_pay3 (F := Ideal) a p (ix2 r c) = Cert.Chamfer.tileDist a p r c := by
  unfold k0_pay3 Cert.Chamfer.tileDist
  show Ideal.sqrt (max ((_ + _) - _ * _) _) = _
  -- the first block without its unit axis, and the second block without it and transposed, entry by entry
  have ha : ∀ k : Fin 3, shapeCast S128x3 a shapeCasts_S1x128x3_S128x3 (ix2 r k) = a (ix3 0 r k) :=
    fun k => shapeCast_1ab_ab_apply a _ r k
  have hp : ∀ k : Fin 3, transpose S3x8192 [1, 0] (shapeCast S8192x3 p shapeCasts_S1x8192x3_S8192x3)
      transposes_S8192x3_p1_0_S3x8192 (ix2 k c) = p (ix3 0 c k) :=
    fun k => (transpose_ix2_apply _ _ k c).trans (shapeCast_1ab_ab_apply p _ c k)
  refine congrArg Ideal.sqrt (congrArg₂ max (congrArg₂ (· - ·) (congrArg₂ (· + ·) ?_ ?_) (congrArg₂ (· * ·) rfl ?_)) rfl)
  · -- the squared length of point `r`, kept as a column and repeated along the row
    refine (broadcastTo_a1_ab_apply _ _ r c).trans ((shapeCast_a_a1_apply _ _ r 0).trans ((rowSum_apply _ _ _ _ r).trans ?_))
    refine Finset.sum_congr rfl fun k _ => ?_
    rw [mulf_apply, ha k]
  · -- the squared length of point `c`, kept as a row and repeated along the column
    refine (broadcastTo_1b_ab_apply _ _ r c).trans ((shapeCast_a_1a_apply _ _ 0 c).trans ((colSum_apply _ _ _ _ c).trans ?_))
    refine Finset.sum_congr rfl fun k _ => ?_
    rw [mulf_apply, hp k]
  · -- the inner product of the two points
    refine (dot_apply _ _ r c).trans ?_
    refine Finset.sum_congr rfl fun k _ => ?_
    rw [truncf_apply, truncf_apply, ha k, hp k]

/-! ## The minima of the table along its rows and along its columns -/

/-- The minimum of a `128 × 8192` table along each row, started from `+∞`: at row `r` the infimum of that row. -/
theorem rowMin_apply (d : FVec Ideal S128x8192 .f32) (h : S128x8192.Reduces [1] S128) (hφ : FKind.Formats .f32)
    (hacc : (0x7F800000#32 : BitVec 32) = FKind.minimumf.neutral .f32 hφ) (r : Fin 128) :
    multiReduction (F := Ideal) .minimumf [1] S128 d 0x7F800000#32 h hφ hacc (ix1 r)
      = Finset.univ.inf fun c : Fin 8192 => d (ix2 r c) := by
  refine (Ideal.multiReduction_minimumf_single d _ h hφ hacc (ix1 r)).trans ?_
  refine (Cert.Chamfer.fold_minimumf_eq_inf (ι := Fin 8192) (d ∘ h.lift (ix1 r))).trans ?_
  refine Finset.inf_congr rfl fun c _ => congrArg d (funext fun ax => Fin.ext ?_)
  match ax with
  | ⟨0, _⟩ => rfl
  | ⟨1, _⟩ => rfl

/-- The minimum of a `128 × 8192` table along each column, started from `+∞`: at column `c` the infimum of that
    column. -/
theorem colMin_apply (d : FVec Ideal S128x8192 .f32) (h : S128x8192.Reduces [0] S8192) (hφ : FKind.Formats .f32)
    (hacc : (0x7F800000#32 : BitVec 32) = FKind.minimumf.neutral .f32 hφ) (c : Fin 8192) :
    multiReduction (F := Ideal) .minimumf [0] S8192 d 0x7F800000#32 h hφ hacc (ix1 c)
      = Finset.univ.inf fun r : Fin 128 => d (ix2 r c) := by
  refine (Ideal.multiReduction_minimumf_single d _ h hφ hacc (ix1 c)).trans ?_
  refine (Cert.Chamfer.fold_minimumf_eq_inf (ι := Fin 128) (d ∘ h.lift (ix1 c))).trans ?_
  refine Finset.inf_congr rfl fun r _ => congrArg d (funext fun ax => Fin.ext ?_)
  match ax with
  | ⟨0, _⟩ => rfl
  | ⟨1, _⟩ => rfl

/-- For each point `r` of the first block, the distance to its nearest point of the second block: the row minima,
    turned from a column into a row and given a leading unit axis. -/
theorem pay5_apply (a : Vec Ideal S1x128x3 .f32) (p : Vec Ideal S1x8192x3 .f32) (r : Fin 128) :
    k0_pay5 (F := Ideal) a p (ix3 0 0 r) = Finset.univ.inf fun c : Fin 8192 => Cert.Chamfer.tileDist a p r c := by
  unfold k0_pay5
  refine (shapeCast_ab_1ab_apply _ _ 0 0 r).trans ((transpose_ix2_apply _ _ 0 r).trans
    ((shapeCast_a_a1_apply _ _ r 0).trans ((rowMin_apply _ _ _ _ r).trans ?_)))
  exact Finset.inf_congr rfl fun c _ => pay3_apply a p r c

/-- For each point `c` of the second block, the distance to its nearest point of the first block: the column minima,
    given a leading unit axis. -/
theorem pay4_apply (a : Vec Ideal S1x128x3 .f32) (p : Vec Ideal S1x8192x3 .f32) (c : Fin 8192) :
    k0_pay4 (F := Ideal) a p (ix2 0 c) = Finset.univ.inf fun r : Fin 128 => Cert.Chamfer.tileDist a p r c := by
  unfold k0_pay4
  refine (shapeCast_a_1a_apply _ _ 0 c).trans ((colMin_apply _ _ _ _ c).trans ?_)
  exact Finset.inf_congr rfl fun r _ => pay3_apply a p r c

/-! ## The running minimum's start and its update -/

/-- The start of the running minimum: every entry is `+∞`. -/
theorem pay2_apply (c : Fin 8192) : k0_pay2 (F := Ideal) (ix3 0 0 c) = (⊤ : EReal) := by
  unfold k0_pay2
  refine (shapeCast_ab_1ab_apply _ _ 0 0 c).trans ?_
  exact Cert.Chamfer.ofBits_inf_f32

/-- The update of the running minimum: entry by entry the smaller of the old value and the new column minimum. -/
theorem pay1_apply (v29 : FVec Ideal S1x8192 .f32) (v34 : Vec Ideal S1x1x8192 .f32) (c : Fin 8192) :
    k0_pay1 (F := Ideal) v29 v34 (ix3 0 0 c) = min (v34 (ix3 0 0 c)) (v29 (ix2 0 c)) := by
  unfold k0_pay1
  refine (shapeCast_ab_1ab_apply _ _ 0 0 c).trans ?_
  rw [minimumf_apply]
  exact congrArg (fun x => min x (v29 (ix2 0 c))) (shapeCast_1ab_ab_apply v34 _ 0 c)

end Cert.Chamfer.Body

end
-- ==== Proof.Running.lean ====
/-
  The running contents of the two output blocks, tile by tile, as distances of the whole clouds.

  Grid point `t` of the 2 × 64 grid works on batch entry `t / 64` and on the tile of 128 points of the first cloud
  that starts at point `128 · (t mod 64)`; the second cloud's block is the whole entry. So the tile's distance
  `(r, c)` is the clouds' distance of point `128 · (t mod 64) + r` from point `c`. After point `t` the first output's
  block holds, for each of the tile's points, the distance to its nearest point of the second cloud; the second
  output's block holds, for each point `c` of the second cloud, the least distance from the points of the first
  cloud met so far in this batch entry, those below `128 · (t mod 64 + 1)`: an infimum that grows tile by tile,
  carried here by its universal property (what lies below it).
-/
import proofs.«176295_j41910290874689_1_alg».proof.Proof.Pieces
import proofs.«176295_j41910290874689_1_alg».proof.Proof.Spec
import proofs.«176295_j41910290874689_1_alg».proof.Proof.BodyValue
import Idealize.ShloMosaic.Lib.ValueIdx

noncomputable section

open Idealize.ShloMosaic Idealize.ShloMosaic.TcCoe Idealize.SL.Sem
open Idealize.ShloMosaic.Pipeline (Dat)

namespace Cert.KernelIdeal.Running

open Cert.KernelIdeal Cert.KernelIdeal.Gen Cert.Chamfer Idealize.ShloMosaic.ValueIdx

variable (m : (ℓ : Loc nD τ sig) → Buf (Elt Ideal) ℓ)

/-- The two clouds as the region finds them, and the two input blocks at a grid point, at their literal types. -/
abbrev xarr (c : Dev nD) : Clouds := V m c main_arg0
abbrev yarr (c : Dev nD) : Clouds := V m c main_arg1
abbrev ablk (c : Dev nD) (t : Fin cfg0.N) : Vec Ideal S1x128x3 .f32 := iblk m c 0 t
abbrev pblk (c : Dev nD) (t : Fin cfg0.N) : Vec Ideal S1x8192x3 .f32 := iblk m c 1 t

/-- The batch entry and the first point of the tile that grid point `n` works on. -/
def entryOf (n : ℕ) (hn : n < cfg0.N) : Fin 2 := ⟨n / 64, by have : cfg0.N = 128 := N_0; omega⟩
def pointOf (n : ℕ) (r : Fin 128) : Fin 8192 := ⟨128 * (n % 64) + r.val, by have := r.isLt; omega⟩

/-- Where the first window's block sits at each grid point: entry `t / 64`, tile `t mod 64`. -/
theorem index0 : ∀ t : Fin cfg0.N, win0_0.index t (0 : Fin 3) = t.val / 64 ∧ win0_0.index t (1 : Fin 3) = t.val % 64
    ∧ win0_0.index t (2 : Fin 3) = 0 :=
  (by decide +kernel : ∀ t : Fin grid0.N, win0_0.index t (0 : Fin 3) = t.val / 64 ∧ win0_0.index t (1 : Fin 3) = t.val % 64
    ∧ win0_0.index t (2 : Fin 3) = 0)
/-- And the second window's: the whole entry `t / 64`. -/
theorem index1 : ∀ t : Fin cfg0.N, win0_1.index t (0 : Fin 3) = t.val / 64 ∧ win0_1.index t (1 : Fin 3) = 0
    ∧ win0_1.index t (2 : Fin 3) = 0 :=
  (by decide +kernel : ∀ t : Fin grid0.N, win0_1.index t (0 : Fin 3) = t.val / 64 ∧ win0_1.index t (1 : Fin 3) = 0
    ∧ win0_1.index t (2 : Fin 3) = 0)

/-- Row `r` of the first cloud's block at point `t` is point `128 · (t mod 64) + r` of entry `t / 64`. -/
theorem ablk_apply (c : Dev nD) (t : Fin cfg0.N) (r : Fin 128) (k : Fin 3) :
    ablk m c t (ix3 0 r k) = xarr m c (ix3 (entryOf t.val t.isLt) (pointOf t.val r) k) := by
  obtain ⟨i0, i1, i2⟩ := index0 t
  unfold ablk iblk
  rw [View.read_apply]
  show V m c main_arg0 _ = V m c main_arg0 _
  congr 1
  funext a
  apply Fin.ext
  match a with
  | ⟨0, _⟩ => show win0_0.index t 0 * 1 + 1 * 0 = t.val / 64; rw [i0]; omega
  | ⟨1, _⟩ => show win0_0.index t 1 * 128 + 1 * r.val = 128 * (t.val % 64) + r.val; rw [i1]; omega
  | ⟨2, _⟩ => show win0_0.index t 2 * 3 + 1 * k.val = k.val; rw [i2]; omega

/-- Row `q` of the second cloud's block at point `t` is point `q` of entry `t / 64`. -/
theorem pblk_apply (c : Dev nD) (t : Fin cfg0.N) (q : Fin 8192) (k : Fin 3) :
    pblk m c t (ix3 0 q k) = yarr m c (ix3 (entryOf t.val t.isLt) q k) := by
  obtain ⟨i0, i1, i2⟩ := index1 t
  unfold pblk iblk
  rw [View.read_apply]
  show V m c main_arg1 _ = V m c main_arg1 _
  congr 1
  funext a
  apply Fin.ext
  match a with
  | ⟨0, _⟩ => show win0_1.index t 0 * 1 + 1 * 0 = t.val / 64; rw [i0]; omega
  | ⟨1, _⟩ => show win0_1.index t 1 * 8192 + 1 * q.val = q.val; rw [i1]; omega
  | ⟨2, _⟩ => show win0_1.index t 2 * 3 + 1 * k.val = k.val; rw [i2]; omega

/-- So the tile's distance `(r, q)` is the clouds' distance of point `128 · (t mod 64) + r` from point `q`. -/
theorem tileDist_eq (c : Dev nD) (t : Fin cfg0.N) (r : Fin 128) (q : Fin 8192) :
    tileDist (ablk m c t) (pblk m c t) r q = Cert.Chamfer.dist (xarr m c) (yarr m c) (entryOf t.val t.isLt) (pointOf t.val r) q := by
  unfold tileDist Cert.Chamfer.dist sqNorm Cert.Chamfer.inner
  simp only [ablk_apply, pblk_apply]

/-! ## The tile's own minima -/

/-- The tile's row minima are the nearest distances of the tile's points: the second cloud's block is its whole entry. -/
theorem tileRows (c : Dev nD) (t : Fin cfg0.N) (r : Fin 128) :
    k0_pay5 (F := Ideal) (ablk m c t) (pblk m c t) (ix3 0 0 r)
      = nearestA (xarr m c) (yarr m c) (entryOf t.val t.isLt) (pointOf t.val r) := by
  rw [Cert.Chamfer.Body.pay5_apply]
  unfold nearestA
  exact Finset.inf_congr rfl fun q _ => tileDist_eq m c t r q

/-- What lies below the tile's column minimum at `q` lies below the distance from every point of the tile. -/
theorem tileCols (c : Dev nD) (t : Fin cfg0.N) (q : Fin 8192) (z : EReal) :
    z ≤ k0_pay4 (F := Ideal) (ablk m c t) (pblk m c t) (ix2 0 q)
      ↔ ∀ r : Fin 128, z ≤ Cert.Chamfer.dist (xarr m c) (yarr m c) (entryOf t.val t.isLt) (pointOf t.val r) q := by
  rw [Cert.Chamfer.Body.pay4_apply, Finset.le_inf_iff]
  simp only [Finset.mem_univ, forall_const, tileDist_eq]

/-- The points below `128 · (j + 1)` are those below `128 · j` and the 128 of tile `j`. -/
theorem below_succ_tile (n : ℕ) (f : Fin 8192 → Prop) :
    (∀ p : Fin 8192, p.val < 128 * (n % 64 + 1) → f p)
      ↔ (∀ p : Fin 8192, p.val < 128 * (n % 64) → f p) ∧ ∀ r : Fin 128, f (pointOf n r) := by
  constructor
  · intro h
    exact ⟨fun p hp => h p (by omega), fun r => h _ (by have := r.isLt; show 128 * (n % 64) + r.val < _; omega)⟩
  · rintro ⟨h1, h2⟩ p hp
    by_cases hlt : p.val < 128 * (n % 64)
    · exact h1 p hlt
    · have e : p = pointOf n ⟨p.val - 128 * (n % 64), by omega⟩ := Fin.ext (by show p.val = 128 * (n % 64) + (p.val - 128 * (n % 64)); omega)
      rw [e]; exact h2 _

/-! ## After each grid point -/

/-- After point `t` the first output's block holds, for each point of the tile, the distance to its nearest point of
    the second cloud. -/
theorem rowsAt (c : Dev nD) (t : Fin cfg0.N) (r : Fin 128) :
    (outsAt0 m c t.val t.isLt).1 (ix3 0 0 r) = nearestA (xarr m c) (yarr m c) (entryOf t.val t.isLt) (pointOf t.val r) := by
  by_cases h0 : t.val % 64 = 0
  · rw [outsAt0_A m c t h0]
    dsimp only
    exact (congrFun (Pieces.out_A_2 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix3 0 0 r)).trans
      (tileRows m c t r)
  · rw [outsAt0_B m c t h0]
    dsimp only
    exact (congrFun (Pieces.out_B_2 (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2) (ix3 0 0 r)).trans (tileRows m c t r)

/-- After point `n` the second output's block holds at `q` the least distance to point `q` of the second cloud from the
    points of the first cloud below `128 · (n mod 64 + 1)`, in the universal form: what lies below it. -/
theorem colsAt (c : Dev nD) : ∀ (n : ℕ) (hn : n < cfg0.N) (q : Fin 8192) (z : EReal),
    z ≤ (outsAt0 m c n hn).2 (ix3 0 0 q)
      ↔ ∀ p : Fin 8192, p.val < 128 * (n % 64 + 1) → z ≤ Cert.Chamfer.dist (xarr m c) (yarr m c) (entryOf n hn) p q := by
  have first : ∀ (t : Fin cfg0.N) (h0 : t.val % 64 = 0) (q : Fin 8192) (z : EReal),
      z ≤ (outsAt0 m c t.val t.isLt).2 (ix3 0 0 q)
        ↔ ∀ p : Fin 8192, p.val < 128 * (t.val % 64 + 1) → z ≤ Cert.Chamfer.dist (xarr m c) (yarr m c) (entryOf t.val t.isLt) p q := by
    intro t h0 q z
    rw [outsAt0_A m c t h0]
    dsimp only
    rw [congrFun (Pieces.out_A_3 (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix3 0 0 q)]
    rw [Cert.Chamfer.Body.pay1_apply, Cert.Chamfer.Body.pay2_apply, le_min_iff, below_succ_tile]
    exact and_congr ⟨fun _ p hp => absurd hp (by rw [h0]; omega), fun _ => le_top⟩ (tileCols m c t q z)
  intro n
  induction n with
  | zero => intro hn q z; exact first ⟨0, hn⟩ rfl q z
  | succ n ih =>
    intro hn q z
    by_cases h0 : (n + 1) % 64 = 0
    · exact first ⟨n + 1, hn⟩ h0 q z
    · have hn' : n < cfg0.N := Nat.lt_of_succ_lt hn
      have hent : entryOf n hn' = entryOf (n + 1) hn := Fin.ext (by show n / 64 = (n + 1) / 64; omega)
      have hmod : n % 64 + 1 = (n + 1) % 64 := by omega
      rw [outsAt0_B m c ⟨n + 1, hn⟩ h0]
      dsimp only
      rw [congrFun (Pieces.out_B_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h))
        (iblk m c 0 ⟨n + 1, hn⟩) (iblk m c 1 ⟨n + 1, hn⟩) (outsAt0 m c (n + 1 - 1) (Nat.lt_of_le_of_lt (Nat.sub_le _ _) hn)).2) (ix3 0 0 q)]
      rw [Cert.Chamfer.Body.pay1_apply, le_min_iff, below_succ_tile, ← hmod, ← hent]
      exact and_congr (ih hn' q z) (by rw [hent]; exact tileCols m c ⟨n + 1, hn⟩ q z)

end Cert.KernelIdeal.Running

end
-- ==== Proof.Arrays.lean ====
/-
  The two result arrays of the kernel region, entry by entry, and the program's result.

  The first output's block at grid point `t` is columns `128 · (t mod 64) …` of row `t / 64`, written back after
  every point: together the blocks tile the array, and each holds its tile's nearest distances, so entry `(b, 0, n)`
  ends at the distance from point `n` of the first cloud of entry `b` to its nearest point of the second. The second
  output's block is the whole row `t / 64`, written back once, after the entry's last tile: by then the running
  infimum has met every point of the first cloud, so entry `(b, 0, q)` ends at the distance from point `q` of the
  second cloud to its nearest point of the first.
-/
import proofs.«176295_j41910290874689_1_alg».proof.Proof.Running
import Idealize.ShloMosaic.Lib.Pipeline.Value

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.Chamfer Idealize.ShloMosaic.ValueIdx Cert.KernelIdeal.Running

variable (m : (ℓ : Loc nD τ sig) → Buf (Elt Ideal) ℓ) (ρ : Dev nD → PrngReg)

/-- What the first result array ends holding: at `(b, 0, n)` the nearest distance of point `n` of the first cloud. -/
def rowsArr (c : Dev nD) : Buf (Elt Ideal) ((c : Thread nD τ).loc main_v0_0) :=
  fun i => nearestA (xarr m c) (yarr m c) ⟨(i 0).val, (i 0).isLt⟩ ⟨(i 2).val, (i 2).isLt⟩
/-- What the second ends holding: at `(b, 0, q)` the nearest distance of point `q` of the second cloud. -/
def colsArr (c : Dev nD) : Buf (Elt Ideal) ((c : Thread nD τ).loc main_v0_1) :=
  fun i => nearestB (xarr m c) (yarr m c) ⟨(i 0).val, (i 0).isLt⟩ ⟨(i 2).val, (i 2).isLt⟩

/-- Where the two output blocks sit at each grid point. -/
theorem index2 : ∀ t : Fin cfg0.N, win0_2.index t (0 : Fin 3) = t.val / 64 ∧ win0_2.index t (1 : Fin 3) = 0
    ∧ win0_2.index t (2 : Fin 3) = t.val % 64 :=
  (by decide +kernel : ∀ t : Fin grid0.N, win0_2.index t (0 : Fin 3) = t.val / 64 ∧ win0_2.index t (1 : Fin 3) = 0
    ∧ win0_2.index t (2 : Fin 3) = t.val % 64)
theorem index3 : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- An index of a block with two leading unit axes is its last coordinate. -/
theorem eq_last128 (j : S1x1x128.Idx) : j = ix3 0 0 (j 2) := by
  funext a
  apply Fin.ext
  match a with
  | ⟨0, _⟩ => show (j 0).val = 0; have h : (j 0).val < 1 := (j 0).isLt; omega
  | ⟨1, _⟩ => show (j 1).val = 0; have h : (j 1).val < 1 := (j 1).isLt; omega
  | ⟨2, _⟩ => rfl
theorem eq_last8192 (j : S1x1x8192.Idx) : j = ix3 0 0 (j 2) := by
  funext a
  apply Fin.ext
  match a with
  | ⟨0, _⟩ => show (j 0).val = 0; have h : (j 0).val < 1 := (j 0).isLt; omega
  | ⟨1, _⟩ => show (j 1).val = 0; have h : (j 1).val < 1 := (j 1).isLt; omega
  | ⟨2, _⟩ => rfl

/-- The first output's block after point `t`, at any index of the block. -/
theorem rowsAt_idx (c : Dev nD) (t : Fin cfg0.N) (j : S1x1x128.Idx) :
    (outsAt0 m c t.val t.isLt).1 j = nearestA (xarr m c) (yarr m c) (entryOf t.val t.isLt) (pointOf t.val (j 2)) :=
  (congrArg (outsAt0 m c t.val t.isLt).1 (eq_last128 j)).trans (rowsAt m c t (j 2))

/-! ## The first output -/

/-- What point `t` writes back of the first output is block `t` of `rowsArr`. -/
theorem flushed2_eq (c : Dev nD) (t : Fin cfg0.N) :
    (dats m 0 c).flushed 2 t = ((cfg0.win 2).blk t).view.read (Elt Ideal) (rowsArr m c) := by
  show (cfg0.win 2).cut (grid0.coords t) ((dats m 0 c).after 2 t) = _
  rw [after0_2]
  obtain ⟨i0, i1, i2⟩ := index2 t
  funext j
  show (outsAt0 m c t.val t.isLt).1 j = rowsArr m c (((cfg0.win 2).blk t).view.emb j)
  refine (rowsAt_idx m c t j).trans ?_
  unfold rowsArr
  congr 1 <;> apply Fin.ext
  · show t.val / 64 = win0_2.index t 0 * 1 + 1 * (j 0).val; have h : (j 0).val < 1 := (j 0).isLt; rw [i0]; omega
  · show 128 * (t.val % 64) + (j 2).val = win0_2.index t 2 * 128 + 1 * (j 2).val; rw [i2]; omega

theorem mem_blk2 (t : Fin cfg0.N) (i : S2x1x8192.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_0).slice (win0_2.rect t)).set ↔ _
  rw [View.set_slice_whole, Rect.mem_set_unit]
  exact Iff.rfl

/-- Entry `(b, 0, n)` lies in the block of grid point `64 b + n / 128`. -/
theorem cover2 (i : S2x1x8192.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 8192 := (i 2).isLt
  have hN : cfg0.N = 128 := N_0
  refine ⟨⟨64 * (i 0).val + (i 2).val / 128, by omega⟩, flush0_2 _, ?_⟩
  obtain ⟨i0, i1, i2⟩ := index2 ⟨64 * (i 0).val + (i 2).val / 128, by omega⟩
  rw [mem_blk2]
  intro a
  match a with
  | ⟨0, _⟩ => show win0_2.index _ 0 * 1 ≤ (i 0).val ∧ (i 0).val < win0_2.index _ 0 * 1 + 1; rw [i0]; dsimp only; omega
  | ⟨1, _⟩ => show win0_2.index _ 1 * 1 ≤ (i 1).val ∧ (i 1).val < win0_2.index _ 1 * 1 + 1; rw [i1]; omega
  | ⟨2, _⟩ => show win0_2.index _ 2 * 128 ≤ (i 2).val ∧ (i 2).val < win0_2.index _ 2 * 128 + 128; rw [i2]; dsimp only; omega

/-- The first result array after the run. -/
theorem final2 (c : Dev nD) : (dats m 0 c).arrAt 2 cfg0.N = rowsArr m c :=
  (dats m 0 c).arrAt_eq_of_cover 2 (rowsArr m c) (fun t _ => flushed2_eq m c t) (cover2)

/-! ## The second output -/

/-- After the last tile of an entry the running infimum has met every point of the first cloud. -/
theorem colsAt_last (c : Dev nD) (t : Fin cfg0.N) (h63 : t.val % 64 = 63) (q : Fin 8192) :
    (outsAt0 m c t.val t.isLt).2 (ix3 0 0 q) = nearestB (xarr m c) (yarr m c) (entryOf t.val t.isLt) q := by
  refine eq_of_forall_le_iff fun z => ?_
  rw [colsAt m c t.val t.isLt q z]
  unfold nearestB
  rw [Finset.le_inf_iff]
  simp only [Finset.mem_univ, forall_const]
  exact ⟨fun h p => h p (by have := p.isLt; omega), fun h p _ => h p⟩

/-- The same at any index of the block. -/
theorem colsAt_last_idx (c : Dev nD) (t : Fin cfg0.N) (h63 : t.val % 64 = 63) (j : S1x1x8192.Idx) :
    (outsAt0 m c t.val t.isLt).2 j = nearestB (xarr m c) (yarr m c) (entryOf t.val t.isLt) (j 2) :=
  (congrArg (outsAt0 m c t.val t.isLt).2 (eq_last8192 j)).trans (colsAt_last m c t h63 (j 2))

/-- What a writing-back point writes back of the second output is its block of `colsArr`. -/
theorem flushed3_eq (c : Dev nD) (t : Fin cfg0.N) (hf : (cfg0.win 3).flush t = true) :
    (dats m 0 c).flushed 3 t = ((cfg0.win 3).blk t).view.read (Elt Ideal) (colsArr m c) := by
  have h63 : t.val % 64 = 63 := (flush0_3 t).mp hf
  show (cfg0.win 3).cut (grid0.coords t) ((dats m 0 c).after 3 t) = _
  rw [after0_3]
  obtain ⟨i0, i1, i2⟩ := index3 t
  funext j
  show (outsAt0 m c t.val t.isLt).2 j = colsArr m c (((cfg0.win 3).blk t).view.emb j)
  refine (colsAt_last_idx m c t h63 j).trans ?_
  unfold colsArr
  congr 1 <;> apply Fin.ext
  · show t.val / 64 = win0_3.index t 0 * 1 + 1 * (j 0).val; have h : (j 0).val < 1 := (j 0).isLt; rw [i0]; omega
  · show (j 2).val = win0_3.index t 2 * 8192 + 1 * (j 2).val; rw [i2]; omega

theorem mem_blk3 (t : Fin cfg0.N) (i : S2x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Entry `(b, 0, q)` lies in the block written back after the last tile of entry `b`, grid point `64 b + 63`. -/
theorem cover3 (i : S2x1x8192.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 8192 := (i 2).isLt
  have hN : cfg0.N = 128 := N_0
  refine ⟨⟨64 * (i 0).val + 63, by omega⟩, (flush0_3 _).mpr (by dsimp only; omega), ?_⟩
  obtain ⟨i0, i1, i2⟩ := index3 ⟨64 * (i 0).val + 63, by omega⟩
  rw [mem_blk3]
  intro a
  match a with
  | ⟨0, _⟩ => show win0_3.index _ 0 * 1 ≤ (i 0).val ∧ (i 0).val < win0_3.index _ 0 * 1 + 1; rw [i0]; dsimp only; omega
  | ⟨1, _⟩ => show win0_3.index _ 1 * 1 ≤ (i 1).val ∧ (i 1).val < win0_3.index _ 1 * 1 + 1; rw [i1]; omega
  | ⟨2, _⟩ => show win0_3.index _ 2 * 8192 ≤ (i 2).val ∧ (i 2).val < win0_3.index _ 2 * 8192 + 8192; rw [i2]; omega

/-- The second result array after the run. -/
theorem final3 (c : Dev nD) : (dats m 0 c).arrAt 3 cfg0.N = colsArr m c :=
  (dats m 0 c).arrAt_eq_of_cover 3 (colsArr m c) (flushed3_eq m c) (cover3)

end Cert.KernelIdeal.Arrays

end
-- ==== Proof.Tail.lean ====
/-
  The last step both programs share: from the two arrays of nearest distances, per batch entry, the mean over the
  8192 points of the first plus the mean over the 8192 points of the second (each mean a sum from zero divided by
  8192), the sum multiplied by one. It is the same expression in both programs, so it is named once and never opened.
-/
import Idealize.ShloMosaic.PureOps.Ideal

noncomputable section

namespace Cert.Chamfer

open Idealize.ShloMosaic

/-- The sum of the two row means, times one. The three shape facts are the ones a printed program states. -/
def meanSum (hr : Shape.ReducesTo ⟨2, ![2, 8192]⟩ [1] ⟨1, ![2]⟩) (h0 : 0 < (⟨0, ![]⟩ : Shape).numel)
    (hb : Shape.BroadcastsInDim ⟨0, ![]⟩ ⟨1, ![2]⟩ (![] : Fin 0 → Fin 1))
    (p q : FVec Ideal ⟨2, ![2, 8192]⟩ .f32) : FVec Ideal ⟨1, ![2]⟩ .f32 :=
  mulf (addf
      (Host.divf (Host.reduceAdd p (constant (F := Ideal) ⟨0, ![]⟩ .f32 0x00000000#32) hr h0)
        (broadcastInDim ⟨1, ![2]⟩ ![] hb (constant (F := Ideal) ⟨0, ![]⟩ .f32 0x46000000#32)))
      (Host.divf (Host.reduceAdd q (constant (F := Ideal) ⟨0, ![]⟩ .f32 0x00000000#32) hr h0)
        (broadcastInDim ⟨1, ![2]⟩ ![] hb (constant (F := Ideal) ⟨0, ![]⟩ .f32 0x46000000#32))))
    (broadcastInDim ⟨1, ![2]⟩ ![] hb (constant (F := Ideal) ⟨0, ![]⟩ .f32 0x3F800000#32))

end Cert.Chamfer

end
-- ==== Proof.KernelRun.lean ====
/-
  The idealized kernel's run, read: the program's result is the sum of the two row means of the two arrays of nearest
  distances of the clouds it was given.

  After the region the program reshapes each `[2, 1, 8192]` result array to `[2, 8192]` (entry `(b, n)` is entry
  `(b, 0, n)`: the same row-major position) and takes the shared last step of them.
-/
import proofs.«176295_j41910290874689_1_alg».proof.Proof.Arrays
import proofs.«176295_j41910290874689_1_alg».proof.Proof.Tail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.Chamfer Idealize.ShloMosaic.ValueIdx Cert.KernelIdeal.Running Cert.KernelIdeal.Arrays

variable (m : (ℓ : Loc nD τ sig) → Buf (Elt Ideal) ℓ) (ρ : Dev nD → PrngReg)

/-- Dropping the unit axis of a `[2, 1, 8192]` array: entry `(b, n)` is entry `(b, 0, n)`. -/
theorem dropUnit_apply (x : S2x1x8192.Idx → EReal) (i : S2x8192.Idx) :
    shapeCast S2x8192 x Facts₀.shapeCasts_S2x1x8192_S2x8192 i = x (ix3 (i 0) 0 (i 1)) :=
  shapeCast_apply x _ i (ix3 (i 0) 0 (i 1)) (by
    rw [Shape.rowMajor_val_three, Shape.rowMajor_val_two]
    show ((i 0).val * 1 + 0) * 8192 + (i 1).val = (i 0).val * 8192 + (i 1).val
    omega)

/-- The first result array, reshaped, is the array of nearest distances of the first cloud's points. -/
theorem rows_reshaped (c : Dev nD) :
    shapeCast S2x8192 (rowsArr m c) Facts₀.shapeCasts_S2x1x8192_S2x8192 = nearestAArr (xarr m c) (yarr m c) := by
  funext i
  rw [dropUnit_apply]
  rfl

/-- The second, reshaped, is the array of nearest distances of the second cloud's points. -/
theorem cols_reshaped (c : Dev nD) :
    shapeCast S2x8192 (colsArr m c) Facts₀.shapeCasts_S2x1x8192_S2x8192 = nearestBArr (xarr m c) (yarr m c) := by
  funext i
  rw [dropUnit_apply]
  rfl

/-- The program's result after the region: the shared last step of the two arrays of nearest distances. -/
theorem tail_eq (c : Dev nD) :
    Pipeline.afterTail₀ cfgs (dats m) 0 (V0 m) [hostOps1] c main_v11
      = meanSum Facts₀.reducesTo_S2x8192_S2_d1 Facts₀.h_S_ Facts₀.bcast_S_S2 (nearestAArr (xarr m c) (yarr m c)) (nearestBArr (xarr m c) (yarr m c)) := by
  unfold Pipeline.afterTail₀
  show StableHlo.after hostOps1 _ (Proc.devRef .tc main_v11) = _
  after_results
  show meanSum Facts₀.reducesTo_S2x8192_S2_d1 Facts₀.h_S_ Facts₀.bcast_S_S2
      (shapeCast S2x8192 (Pipeline.withArrays (cfgs 0).spec c (V0 m c) (fun w => (dats m 0 c).arrAt w (cfgs 0).N) (Proc.devRef .tc main_v0_0)) Facts₀.shapeCasts_S2x1x8192_S2x8192)
      (shapeCast S2x8192 (Pipeline.withArrays (cfgs 0).spec c (V0 m c) (fun w => (dats m 0 c).arrAt w (cfgs 0).N) (Proc.devRef .tc main_v0_1)) Facts₀.shapeCasts_S2x1x8192_S2x8192) = _
  rw [show Pipeline.withArrays (cfgs 0).spec c (V0 m c) (fun w => (dats m 0 c).arrAt w (cfgs 0).N) (Proc.devRef .tc main_v0_0) = rowsArr m c from
        (Pipeline.withArrays_arr spec0 launch0.win.arr_inj c _ _ 2).trans (final2 m c),
    show Pipeline.withArrays (cfgs 0).spec c (V0 m c) (fun w => (dats m 0 c).arrAt w (cfgs 0).N) (Proc.devRef .tc main_v0_1) = colsArr m c from
        (Pipeline.withArrays_arr spec0 launch0.win.arr_inj c _ _ 3).trans (final3 m c),
    rows_reshaped, cols_reshaped]

/-- The idealized kernel's run, read: its result at the shared last step of the nearest distances of the clouds it
    was given, its arguments unchanged. -/
theorem run : θ_run defs (onTc (τ := τ) (main (F := Ideal))) ⟨m, fun _ => 0, ρ⟩ fun r => ∀ c : Dev nD,
      r.2.mem ((c.tc : Thread nD τ).loc main_v11)
        = meanSum Facts₀.reducesTo_S2x8192_S2_d1 Facts₀.h_S_ Facts₀.bcast_S_S2
            (nearestAArr (m ((c.tc : Thread nD τ).loc main_arg0)) (m ((c.tc : Thread nD τ).loc main_arg1)))
            (nearestBArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefNearest.lean ====
/-
  The reference's two arrays of nearest distances.

  The reference forms, for every batch entry `b` and every pair of points `n` of `x`, `m` of `y`, the root of
  `max ((|x_n|² + |y_m|²) - 2 · x_n·y_m) 0`: the squared lengths by a sum over the three coordinates from zero, the
  inner product by a contraction over them, each spread over the other cloud's axis. That array at `(b, n, m)` is
  `dist x y b n m`. Its minimum from `+∞` along the last axis is, at `(b, n)`, the infimum over `m`; its minimum
  along the middle axis is, at `(b, m)`, the infimum over `n`.
-/
import proofs.«176295_j41910290874689_1_alg».proof.Proof.Gen.ReferenceIdeal.Read
import proofs.«176295_j41910290874689_1_alg».proof.Proof.Spec
import proofs.«176295_j41910290874689_1_alg».proof.Proof.LibMinReduce
import Idealize.ShloMosaic.PureOps.Reduce
import Idealize.ShloMosaic.PureOps.Ideal
import Idealize.ShloMosaic.PureOps.Ideal.Laws
import Idealize.ShloMosaic.Lib.ValueIdx

noncomputable section

open scoped BigOperators

namespace Cert.Chamfer.Ref

open Cert.ReferenceIdeal Cert.ReferenceIdeal.Gen Cert.ReferenceIdeal.Read Idealize.ShloMosaic Idealize.ShloMosaic.ValueIdx

/-! ## The index compositions at `(b, n, m)` -/

/-- The squared length of `x`'s point is read at `(b, n, k)`. -/
theorem idx_x (b : Fin 2) (n m : Fin 8192) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared length of `y`'s point is read at `(b, m, k)`. -/
theorem idx_y (b : Fin 2) (n m : Fin 8192) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The contraction reads `x` at `(b, n, k)`. -/
theorem idx_l (b : Fin 2) (n m : Fin 8192) (k : Fin 3) :
    lidx_main_v4 (ix3 b n m) k = ix3 b n k :=
  funext fun a => Fin.ext (by match a with | ⟨0, _⟩ => rfl | ⟨1, _⟩ => rfl | ⟨2, _⟩ => rfl)

/-- The contraction reads `y` at `(b, m, k)`. -/
theorem idx_r (b : Fin 2) (n m : Fin 8192) (k : Fin 3) :
    ridx_main_v4 (ix3 b n m) k = ix3 b m k :=
  funext fun a => Fin.ext (by match a with | ⟨0, _⟩ => rfl | ⟨1, _⟩ => rfl | ⟨2, _⟩ => rfl)

/-! ## The distance array -/

/-- The reference's distance array at `(b, n, m)` is the distance of point `n` of `x` from point `m` of `y`. -/
theorem v15_apply (x y : Clouds) (b : Fin 2) (n m : Fin 8192) :
    val_main_v15 (F := Ideal) x y (ix3 b n m) = dist x y b n m := by
  rw [val_main_v15_apply, val_main_v14_apply, val_main_v12_apply, val_main_v13_apply, val_main_cst_2_apply,
    val_main_v9_apply, val_main_v11_apply, val_main_v10_apply, val_main_cst_1_apply, val_main_v4_apply,
    val_main_v7_apply, val_main_v5_apply, val_main_v1_apply, val_main_cst_apply,
    val_main_v8_apply, val_main_v6_apply, val_main_v3_apply, val_main_cst_0_apply]
  simp only [val_main_v0_apply, val_main_v2_apply, idx_x, idx_y, idx_l, idx_r, Ideal.hostUnary_sqrt_def,
    Ideal.maximumf_def, Ideal.subf_def, Ideal.addf_def, Ideal.mulf_def, Ideal.ofBits_def, Ideal.ofBits_zero_f32, zero_add,
    dist, sqNorm, inner]

/-! ## The two minima -/

/-- The source index over `(b, n)` with `m` inserted on the last axis is `(b, n, m)`. -/
theorem lift_last (h : S2x8192x8192.Reduces [2] S2x8192) (b : Fin 2) (n m : Fin 8192) :
    h.lift (ix2 b n) m = ix3 b n m :=
  funext fun a => Fin.ext (by match a with | ⟨0, _⟩ => rfl | ⟨1, _⟩ => rfl | ⟨2, _⟩ => rfl)

/-- The source index over `(b, m)` with `n` inserted on the middle axis is `(b, n, m)`. -/
theorem lift_mid (h : S2x8192x8192.Reduces [1] S2x8192) (b : Fin 2) (m n : Fin 8192) :
    h.lift (ix2 b m) n = ix3 b n m :=
  funext fun a => Fin.ext (by match a with | ⟨0, _⟩ => rfl | ⟨1, _⟩ => rfl | ⟨2, _⟩ => rfl)

/-- The minimum of the distance array along its last axis, from `+∞`: for each point of `x`, the distance to its
    nearest point of `y`. -/
theorem ref_nearestA (x y : Clouds) : val_main_v16 (F := Ideal) x y = nearestAArr x y := by
  funext j
  obtain ⟨b, n, rfl⟩ : ∃ b n, j = ix2 b n := ⟨j 0, j 1, eq_ix2 j⟩
  have h : S2x8192x8192.Reduces [2] S2x8192 := by decide
  unfold val_main_v16
  rw [Host.reduce_eq_fold_single (FloatOps.minimumf (F := Ideal) (φ := .f32)) _ _ reducesTo_S2x8192x8192_S2x8192_d2 h,
    val_main_cst_3_apply]
  change (Finset.univ : Finset (Fin 8192)).fold (FloatOps.minimumf (F := Ideal) (φ := .f32))
      (FloatOps.ofBits .f32 0x7F800000#32) (fun m : Fin 8192 => val_main_v15 (F := Ideal) x y (h.lift (ix2 b n) m))
    = nearestA x y b n
  have e : (fun m : Fin 8192 => val_main_v15 (F := Ideal) x y (h.lift (ix2 b n) m)) = fun m => dist x y b n m :=
    funext fun m => by rw [lift_last, v15_apply]
  rw [e, fold_minimumf_eq_inf]
  rfl

/-- The minimum of the distance array along its middle axis, from `+∞`: for each point of `y`, the distance to its
    nearest point of `x`. -/
theorem ref_nearestB (x y : Clouds) : val_main_v17 (F := Ideal) x y = nearestBArr x y := by
  funext j
  obtain ⟨b, m, rfl⟩ : ∃ b m, j = ix2 b m := ⟨j 0, j 1, eq_ix2 j⟩
  have h : S2x8192x8192.Reduces [1] S2x8192 := by decide
  unfold val_main_v17
  rw [Host.reduce_eq_fold_single (FloatOps.minimumf (F := Ideal) (φ := .f32)) _ _ reducesTo_S2x8192x8192_S2x8192_d1 h,
    val_main_cst_4_apply]
  change (Finset.univ : Finset (Fin 8192)).fold (FloatOps.minimumf (F := Ideal) (φ := .f32))
      (FloatOps.ofBits .f32 0x7F800000#32) (fun n : Fin 8192 => val_main_v15 (F := Ideal) x y (h.lift (ix2 b m) n))
    = nearestB x y b m
  have e : (fun n : Fin 8192 => val_main_v15 (F := Ideal) x y (h.lift (ix2 b m) n)) = fun n => dist x y b n m :=
    funext fun n => by rw [lift_mid, v15_apply]
  rw [e, fold_minimumf_eq_inf]
  rfl

end Cert.Chamfer.Ref

end
-- ==== Proof.lean ====
/-
  The Chamfer distance between two batches of point clouds: a tiled kernel against the one-shot reference.

  Both programs take, for two clouds `x`, `y` of 8192 points of 3-space (two batch entries), the distance
  `√ max ((|p|² + |q|²) − 2 p·q) 0` of every point `p` of `x` from every point `q` of `y`, then for each point of `x` the
  least distance to a point of `y`, for each point of `y` the least distance to a point of `x`, and return per batch
  entry the sum of the two means. The reference forms the whole 8192 × 8192 table and reduces it along each axis.
  The kernel walks the first cloud in 64 tiles of 128 points: a tile's row minima are final at once (the second cloud
  is present whole), while the column minima are carried from tile to tile as a running minimum that starts at `+∞`.
  Over the extended reals a minimum over a finite set is an infimum, indifferent to order and grouping, so the
  running minimum after the last tile is the infimum over all 8192 points: the two programs agree entry by entry,
  with no appeal to finiteness of the inputs. The sums of squares, the inner products (a product of narrowed
  operands is the exact product at the ideal values) and the last step are the same expressions on both sides.
-/
import proofs.«176295_j41910290874689_1_alg».proof.Defs
import proofs.«176295_j41910290874689_1_alg».proof.Proof.Gen.Kernel
import proofs.«176295_j41910290874689_1_alg».proof.Proof.Gen.Kernel.Frame
import proofs.«176295_j41910290874689_1_alg».proof.Proof.Gen.KernelIdeal
import proofs.«176295_j41910290874689_1_alg».proof.Proof.Gen.KernelIdeal.Frame
import proofs.«176295_j41910290874689_1_alg».proof.Proof.Gen.ReferenceIdeal
import proofs.«176295_j41910290874689_1_alg».proof.Proof.Gen.ReferenceIdeal.Run
import proofs.«176295_j41910290874689_1_alg».proof.Proof.Gen.ReferenceIdeal.Read
import proofs.«176295_j41910290874689_1_alg».proof.Proof.Gen.Pre_finite_inputs
import proofs.«176295_j41910290874689_1_alg».proof.Proof.KernelRun
import proofs.«176295_j41910290874689_1_alg».proof.Proof.RefNearest
import proofs.«176295_j41910290874689_1_alg».proof.Proof.Tail
import Idealize.ShloMosaic.Adequacy
import Idealize.ShloMosaic.Init

noncomputable section

namespace Cert.Proof

open Idealize.ShloMosaic Idealize.ShloMosaic.TcCoe Idealize.SL.Sem Cert.Chamfer

/-- The reference's result is the shared last step of its two arrays of nearest distances. -/
theorem ref_result (x y : Clouds) :
    Cert.ReferenceIdeal.Read.val_main_v26 (F := Ideal) x y
      = meanSum Cert.KernelIdeal.Facts₀.reducesTo_S2x8192_S2_d1 Cert.KernelIdeal.Facts₀.h_S_ Cert.KernelIdeal.Facts₀.bcast_S_S2
          (nearestAArr x y) (nearestBArr x y) := by
  show meanSum Cert.KernelIdeal.Facts₀.reducesTo_S2x8192_S2_d1 Cert.KernelIdeal.Facts₀.h_S_ Cert.KernelIdeal.Facts₀.bcast_S_S2
      (Cert.ReferenceIdeal.Read.val_main_v16 (F := Ideal) x y) (Cert.ReferenceIdeal.Read.val_main_v17 (F := Ideal) x y) = _
  rw [Cert.Chamfer.Ref.ref_nearestA, Cert.Chamfer.Ref.ref_nearestB]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the two clouds, both idealized programs end at the sum of the two means of the
    nearest distances of those clouds. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  exact ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
